-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S2048x2048 : Shape := ⟨2, ![2048, 2048]⟩
abbrev S2048 : Shape := ⟨1, ![2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel
  bcast_S_S2048x2048 : S_.BroadcastsInDim S2048x2048 (![] : Fin 0 → Fin S2048x2048.rank)
  reducesTo_S2048x2048_S_d0_1 : S2048x2048.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048 .f32) (main_arg5 : FVec F S2048x2048 .f32) (main_arg6 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S4096x2048 .f32) (main_arg1 : FVec F S2048x2048 .f32) (main_arg2 : FVec F S2048x2048 .f32) (main_arg3 : FVec F S2048 .f32) (main_arg4 : FVec F S2048 .f32) (main_arg5 : FVec F S2048x2048 .f32) (main_arg6 : FVec F S2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x2048 .f32 := Host.absf main_arg2
  let main_cst_2 : FVec F S_ .f32 := constant S_ .f32 0x7F800000#32
  let main_v10 : FVec F S2048x2048 .f32 := broadcastInDim S2048x2048 ![] bcast_S_S2048x2048 main_cst_2
  let main_v11 : IVec S2048x2048 1 := cmpf .olt main_v9 main_v10
  let main_c_3 : IVec S_ 1 := constantI S_ 1 1#1
  let main_v12 : IVec S_ 1 := (fun x v => Host.reduce IntOp.andi x v reducesTo_S2048x2048_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_v13 main_v16
-- ==== Kernel.lean ====
abbrev S4096x2048 : Shape := ⟨2, ![4096, 2048]⟩
abbrev S2048x2048 : Shape := ⟨2, ![2048, 2048]⟩
abbrev S2048 : Shape := ⟨1, ![2048]⟩
abbrev S512x2048 : Shape := ⟨2, ![512, 2048]⟩
abbrev S256x2048 : Shape := ⟨2, ![256, 2048]⟩
abbrev S256 : Shape := ⟨1, ![256]⟩
abbrev S512x256 : Shape := ⟨2, ![512, 256]⟩
abbrev S1x256 : Shape := ⟨2, ![1, 256]⟩

abbrev nBuf : Space → Nat
  | .hbm => 9
  | .vmem => 18
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S4096x2048, .f32⟩
  | .hbm, ⟨8, _⟩ => ⟨S4096x2048, .f32⟩
  | .local _ .vmem, ⟨0, _⟩ => ⟨S512x2048, .f32⟩
  | .local _ .vmem, ⟨1, _⟩ => ⟨S512x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256, .f32⟩
  | .local _ .vmem, ⟨9, _⟩ => ⟨S256, .f32⟩
  | .local _ .vmem, ⟨10, _⟩ => ⟨S256, .f32⟩
  | .local _ .vmem, ⟨11, _⟩ => ⟨S256, .f32⟩
  | .local _ .vmem, ⟨12, _⟩ => ⟨S256, .f32⟩
  | .local _ .vmem, ⟨13, _⟩ => ⟨S256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_5 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

class Facts₀ : Prop where
  inb_S512x2048_S512x2048_0_0 : ∀ a, (![0, 0] : Fin 2 → Nat) a + S512x2048.size a ≤ S512x2048.size a
  h_S512x2048 : 0 < S512x2048.numel
  inb_S256x2048_S256x2048_0_0 : ∀ a, (![0, 0] : Fin 2 → Nat) a + S256x2048.size a ≤ S256x2048.size a
  h_S256x2048 : 0 < S256x2048.numel
  inb_S256_S256_0 : ∀ a, (![0] : Fin 1 → Nat) a + S256.size a ≤ S256.size a
  h_S256 : 0 < S256.numel
  bitsLt_bf16_f32 : FTy.bits .bf16 < FTy.bits .f32
  shapeCasts_S256_S1x256 : S256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  dot_S512x2048_S256x2048_S512x256_1_1_0_0_n_n_wf : DotDims.WF S512x2048 S256x2048 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S4096x2048.size a
  hwx0_0 : ∀ i : grid0.Coords, EltTy.bits .f32 = 32 ∨ (Rect.block (s := S4096x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S2048x2048.size a
  hwx0_1 : ∀ i : grid0.Coords, EltTy.bits .f32 = 32 ∨ (Rect.block (s := S2048x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S2048x2048.size a
  hwx0_2 : ∀ i : grid0.Coords, EltTy.bits .f32 = 32 ∨ (Rect.block (s := S2048x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S2048x2048.size a
  hwx0_3 : ∀ i : grid0.Coords, EltTy.bits .f32 = 32 ∨ (Rect.block (s := S2048x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S2048.size a
  hwx0_4 : ∀ i : grid0.Coords, EltTy.bits .f32 = 32 ∨ (Rect.block (s := S2048) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S2048.size a
  hwx0_5 : ∀ i : grid0.Coords, EltTy.bits .f32 = 32 ∨ (Rect.block (s := S2048) S256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S2048.size a
  hwx0_6 : ∀ i : grid0.Coords, EltTy.bits .f32 = 32 ∨ (Rect.block (s := S2048) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S4096x2048.size a
  hwx0_7 : ∀ i : grid0.Coords, EltTy.bits .f32 = 32 ∨ (Rect.block (s := S4096x2048) S512x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S4096x2048.size a
  hwx0_8 : ∀ i : grid0.Coords, EltTy.bits .f32 = 32 ∨ (Rect.block (s := S4096x2048) S512x256.size (cc0_transform_8 i) (hinb0_8 i)).WholeWords (EltTy.packing .f32)

variable [Facts₀]

def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S512x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S512x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S2048x2048 : Shape := ⟨2, ![2048, 2048]⟩
abbrev S2048 : Shape := ⟨1, ![2048]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048x2048, .f32⟩
  | .hbm, ⟨2, _⟩ => ⟨S2048x2048, .f32⟩
  | .hbm, ⟨3, _⟩ => ⟨S2048, .f32⟩
  | .hbm, ⟨4, _⟩ => ⟨S2048, .f32⟩
  | .hbm, ⟨5, _⟩ => ⟨S2048x2048, .f32⟩
  | .hbm, ⟨6, _⟩ => ⟨S2048, .f32⟩
  | .hbm, ⟨7, _⟩ => ⟨S2048x2048, .f32⟩
  | .hbm, ⟨8, _⟩ => ⟨S2048, .f32⟩
  | .hbm, ⟨9, _⟩ => ⟨S2048x2048, .f32⟩
  | .hbm, ⟨10, _⟩ => ⟨S2048x2048, .f32⟩
  | .hbm, ⟨11, _⟩ => ⟨S2048, .f32⟩
  | .hbm, ⟨12, _⟩ => ⟨S2048, .f32⟩
  | .hbm, ⟨13, _⟩ => ⟨S4096x2048, .f32⟩
  | .hbm, ⟨14, _⟩ => ⟨S1x2048, .f32⟩
  | .hbm, ⟨15, _⟩ => ⟨S4096x2048, .f32⟩
  | .hbm, ⟨16, _⟩ => ⟨S4096x2048, .f32⟩
  | .hbm, ⟨17, _⟩ => ⟨S4096x2048, .f32⟩
  | .hbm, ⟨18, _⟩ => ⟨S2048x2048, .f32⟩
  | .hbm, ⟨19, _⟩ => ⟨S4096x2048, .f32⟩
  | .hbm, ⟨20, _⟩ => ⟨S2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S4096x2048_0_1 : S1x2048.BroadcastsInDim S4096x2048 (![0, 1] : Fin 2 → Fin S4096x2048.rank)
  dot_S4096x2048_S2048x2048_S4096x2048_1_1_0_0_n_n_wf : DotDims.WF S4096x2048 S2048x2048 S4096x2048 [1] [1] [0] [0] [] []

variable [Facts₀]

def dot_S4096x2048_S2048x2048_S4096x2048_1_1_0_0_n_n : DotDims S4096x2048 S2048x2048 S4096x2048 where
  lhsContracting := [1]
  rhsContracting := [1]
  lhsNonContracting := [0]
  rhsNonContracting := [0]
  lhsBatch := []
  rhsBatch := []
  wf := dot_S4096x2048_S2048x2048_S4096x2048_1_1_0_0_n_n_wf

class Facts : Prop extends Facts₀ where

variable [Facts]
-- ==== Proof.Spec.lean ====
/-
  A linear layer whose weights and bias are sampled by reparametrisation, with the standard deviation of its output,
  entry by entry on the extended reals.

  Inputs: `x` of shape `[B, K]`; the weight's mean `wmu`, log standard deviation `wls` and noise `epsw`, each `[N, K]`;
  the bias's mean `bmu`, log standard deviation `bls` and noise `epsb`, each `[N]`.

  The sampled weight is `wmu + exp(wls) · epsw`, the sampled bias `bmu + exp(bls) · epsb`. Row `b` of `x` against
  row `o` of the weight gives the output's mean entry `Σ_k x[b,k] · weight[o,k] + bias[o]`; its spread entry is
  `sqrt(Σ_k x[b,k]² · exp(wls[o,k])² + exp(bls[o])²)`.

  Both are functions of the ROWS `x[b, ·]`, `w…[o, ·]` and of the bias entries at `o` only, which is what lets a tile of
  the output be computed from a row block of `x` and a row block of the weight arrays (`mean_congr`, `spread_congr`).
-/
import Idealize.ShloMosaic.PureOps.Ideal
import Idealize.ShloMosaic.Lib.ValueIdx

noncomputable section

open scoped BigOperators
open Idealize.ShloMosaic Idealize.ShloMosaic.ValueIdx

namespace Cert.SampledLinear

variable {B K N : Nat}

/-- The sampled weight at `(o, k)`: `wmu[o,k] + exp(wls[o,k]) · epsw[o,k]`. -/
def weight (wmu wls epsw : (⟨2, ![N, K]⟩ : Shape).Idx → EReal) (o : Fin N) (k : Fin K) : EReal :=
  wmu (ix2 o k) + Ideal.exp (wls (ix2 o k)) * epsw (ix2 o k)

/-- The sampled bias at `o`: `bmu[o] + exp(bls[o]) · epsb[o]`. -/
def bias (bmu bls epsb : (⟨1, ![N]⟩ : Shape).Idx → EReal) (o : Fin N) : EReal :=
  bmu (ix1 o) + Ideal.exp (bls (ix1 o)) * epsb (ix1 o)

/-- The output's mean at `(b, o)`: row `b` of `x` against row `o` of the sampled weight, plus the sampled bias. -/
def mean (x : (⟨2, ![B, K]⟩ : Shape).Idx → EReal) (wmu wls epsw : (⟨2, ![N, K]⟩ : Shape).Idx → EReal)
    (bmu bls epsb : (⟨1, ![N]⟩ : Shape).Idx → EReal) (b : Fin B) (o : Fin N) : EReal :=
  (∑ k : Fin K, x (ix2 b k) * weight wmu wls epsw o k) + bias bmu bls epsb o

/-- The output's spread at `(b, o)`: the root of the squared row of `x` against the squared weight deviations, plus the
    squared bias deviation. -/
def spread (x : (⟨2, ![B, K]⟩ : Shape).Idx → EReal) (wls : (⟨2, ![N, K]⟩ : Shape).Idx → EReal)
    (bls : (⟨1, ![N]⟩ : Shape).Idx → EReal) (b : Fin B) (o : Fin N) : EReal :=
  Ideal.sqrt ((∑ k : Fin K, (x (ix2 b k) * x (ix2 b k)) * (Ideal.exp (wls (ix2 o k)) * Ideal.exp (wls (ix2 o k))))
    + Ideal.exp (bls (ix1 o)) * Ideal.exp (bls (ix1 o)))

/-- The mean as an array of shape `[B, N]`. -/
def meanArr (x : (⟨2, ![B, K]⟩ : Shape).Idx → EReal) (wmu wls epsw : (⟨2, ![N, K]⟩ : Shape).Idx → EReal)
    (bmu bls epsb : (⟨1, ![N]⟩ : Shape).Idx → EReal) : (⟨2, ![B, N]⟩ : Shape).Idx → EReal :=
  fun i => mean x wmu wls epsw bmu bls epsb (i 0) (i 1)

/-- The spread as an array of shape `[B, N]`. -/
def spreadArr (x : (⟨2, ![B, K]⟩ : Shape).Idx → EReal) (wls : (⟨2, ![N, K]⟩ : Shape).Idx → EReal)
    (bls : (⟨1, ![N]⟩ : Shape).Idx → EReal) : (⟨2, ![B, N]⟩ : Shape).Idx → EReal :=
  fun i => spread x wls bls (i 0) (i 1)

variable {B' N' : Nat}

/-- The mean at `(b, o)` of one family of arrays is the mean at `(b', o')` of another whose row `b'` of `x`, rows `o'` of
    the weight arrays and bias entries at `o'` are the first family's at `b` and `o`. -/
theorem mean_congr
    (x : (⟨2, ![B, K]⟩ : Shape).Idx → EReal) (wmu wls epsw : (⟨2, ![N, K]⟩ : Shape).Idx → EReal)
    (bmu bls epsb : (⟨1, ![N]⟩ : Shape).Idx → EReal)
    (x' : (⟨2, ![B', K]⟩ : Shape).Idx → EReal) (wmu' wls' epsw' : (⟨2, ![N', K]⟩ : Shape).Idx → EReal)
    (bmu' bls' epsb' : (⟨1, ![N']⟩ : Shape).Idx → EReal)
    (b : Fin B) (o : Fin N) (b' : Fin B') (o' : Fin N')
    (hx : ∀ k, x (ix2 b k) = x' (ix2 b' k))
    (hwmu : ∀ k, wmu (ix2 o k) = wmu' (ix2 o' k)) (hwls : ∀ k, wls (ix2 o k) = wls' (ix2 o' k))
    (hepsw : ∀ k, epsw (ix2 o k) = epsw' (ix2 o' k))
    (hbmu : bmu (ix1 o) = bmu' (ix1 o')) (hbls : bls (ix1 o) = bls' (ix1 o')) (hepsb : epsb (ix1 o) = epsb' (ix1 o')) :
    mean x wmu wls epsw bmu bls epsb b o = mean x' wmu' wls' epsw' bmu' bls' epsb' b' o' := by
  unfold mean weight bias
  rw [hbmu, hbls, hepsb]
  congr 1
  refine Finset.sum_congr rfl fun k _ => ?_
  rw [hx k, hwmu k, hwls k, hepsw k]

/-- The same for the spread, which reads `x`'s row, the weight's log deviations' row and the bias's log deviation. -/
theorem spread_congr
    (x : (⟨2, ![B, K]⟩ : Shape).Idx → EReal) (wls : (⟨2, ![N, K]⟩ : Shape).Idx → EReal) (bls : (⟨1, ![N]⟩ : Shape).Idx → EReal)
    (x' : (⟨2, ![B', K]⟩ : Shape).Idx → EReal) (wls' : (⟨2, ![N', K]⟩ : Shape).Idx → EReal) (bls' : (⟨1, ![N']⟩ : Shape).Idx → EReal)
    (b : Fin B) (o : Fin N) (b' : Fin B') (o' : Fin N')
    (hx : ∀ k, x (ix2 b k) = x' (ix2 b' k)) (hwls : ∀ k, wls (ix2 o k) = wls' (ix2 o' k))
    (hbls : bls (ix1 o) = bls' (ix1 o')) :
    spread x wls bls b o = spread x' wls' bls' b' o' := by
  unfold spread
  rw [hbls]
  congr 2
  refine Finset.sum_congr rfl fun k _ => ?_
  rw [hx k, hwls k]

end Cert.SampledLinear

end
-- ==== Proof.RefValue.lean ====
/-
  The host program's two results are the sampled linear layer's mean and spread arrays.

  Read one operation at a time, the first result at `(b, o)` is the product of `x` with the sampled weight contracted over
  both last axes, `Σ_k x[b,k] · (wmu[o,k] + exp(wls[o,k]) · epsw[o,k])`, plus the sampled bias broadcast along the rows;
  the second is the root of `Σ_k (x[b,k] · x[b,k]) · (exp(wls[o,k]) · exp(wls[o,k]))` plus the squared bias deviation
  broadcast the same way. The host's exponential and square root are the extended reals' own.
-/
import proofs.«180753_j28011776705085_1_alg».proof.Proof.Gen.ReferenceIdeal.Read
import proofs.«180753_j28011776705085_1_alg».proof.Proof.Spec

noncomputable section

open scoped BigOperators
open Idealize.ShloMosaic Idealize.ShloMosaic.ValueIdx

namespace Cert.SampledLinear.Host

open Cert.ReferenceIdeal Cert.ReferenceIdeal.Read

/-- The left operand of either contraction at output `(b, o)` and `k` is read at `(b, k)`. -/
theorem lidx6 (b : Fin 4096) (o : Fin 2048) (k : Fin 2048) : lidx_main_v6 (ix2 b o) k = ix2 b k :=
  funext fun a => Fin.ext (by match a with | ⟨0, _⟩ => rfl | ⟨1, _⟩ => rfl)

/-- The right operand is read at `(o, k)`. -/
theorem ridx6 (b : Fin 4096) (o : Fin 2048) (k : Fin 2048) : ridx_main_v6 (ix2 b o) k = ix2 o k :=
  funext fun a => Fin.ext (by match a with | ⟨0, _⟩ => rfl | ⟨1, _⟩ => rfl)

theorem lidx12 (b : Fin 4096) (o : Fin 2048) (k : Fin 2048) : lidx_main_v12 (ix2 b o) k = ix2 b k :=
  funext fun a => Fin.ext (by match a with | ⟨0, _⟩ => rfl | ⟨1, _⟩ => rfl)

theorem ridx12 (b : Fin 4096) (o : Fin 2048) (k : Fin 2048) : ridx_main_v12 (ix2 b o) k = ix2 o k :=
  funext fun a => Fin.ext (by match a with | ⟨0, _⟩ => rfl | ⟨1, _⟩ => rfl)

/-- The bias vector broadcast to `[1, N]` and then along the rows is read, at `(b, o)`, at `o`. -/
theorem bidx8 (b : Fin 4096) (o : Fin 2048) : idx_main_v7 (idx_main_v8 (ix2 b o)) = ix1 o :=
  funext fun a => Fin.ext (by match a with | ⟨0, _⟩ => rfl)

theorem bidx15 (b : Fin 4096) (o : Fin 2048) : idx_main_v14 (idx_main_v15 (ix2 b o)) = ix1 o :=
  funext fun a => Fin.ext (by match a with | ⟨0, _⟩ => rfl)

/-- The first result is the mean array. -/
theorem mean_eq (x0 : FVec Ideal S4096x2048 .f32) (x1 x2 : FVec Ideal S2048x2048 .f32) (x3 x4 : FVec Ideal S2048 .f32)
    (x5 : FVec Ideal S2048x2048 .f32) (x6 : FVec Ideal S2048 .f32) :
    val_main_v9 (F := Ideal) x0 x1 x2 x3 x4 x5 x6 = meanArr x0 x1 x2 x5 x3 x4 x6 := by
  funext i
  obtain ⟨b, o, rfl⟩ : ∃ (b : Fin 4096) (o : Fin 2048), i = ix2 b o := ⟨i 0, i 1, eq_ix2 i⟩
  rw [val_main_v9_apply, val_main_v6_apply, val_main_v8_apply, val_main_v7_apply, val_main_v5_apply, val_main_v4_apply,
    val_main_v1_apply, bidx8]
  show _ = mean x0 x1 x2 x5 x3 x4 x6 b o
  unfold mean weight bias
  simp only [lidx6, ridx6, val_main_v3_apply, val_main_v2_apply, val_main_v0_apply, Ideal.addf_def, Ideal.mulf_def,
    Ideal.hostUnary_exp_def]

/-- The second result is the spread array. -/
theorem spread_eq (x0 : FVec Ideal S4096x2048 .f32) (x2 : FVec Ideal S2048x2048 .f32) (x4 : FVec Ideal S2048 .f32) :
    val_main_v17 (F := Ideal) x0 x2 x4 = spreadArr x0 x2 x4 := by
  funext i
  obtain ⟨b, o, rfl⟩ : ∃ (b : Fin 4096) (o : Fin 2048), i = ix2 b o := ⟨i 0, i 1, eq_ix2 i⟩
  rw [val_main_v17_apply, val_main_v16_apply, val_main_v12_apply, val_main_v15_apply, val_main_v14_apply, val_main_v13_apply,
    val_main_v1_apply, bidx15]
  show _ = spread x0 x2 x4 b o
  unfold spread
  simp only [lidx12, ridx12, val_main_v10_apply, val_main_v11_apply, val_main_v0_apply, Ideal.addf_def, Ideal.mulf_def,
    Ideal.hostUnary_exp_def, Ideal.hostUnary_sqrt_def]

end Cert.SampledLinear.Host

end
-- ==== Proof.LibMatmulTransposedRhs.lean ====
/-
  A matrix product against a transposed right operand, read at one entry, on the extended reals.

  For the dimension numbers of an `[M, K]` by `[N, K]` product (contract the last axis of both operands, no batch
  axis), the matrix unit's product accumulated into a zero block, and the host's `dot_general`, are both, at entry
  `(r, s)`, the sum over `k` of `lhs[r, k] · rhs[s, k]`: the contraction index has one coordinate, and the operand
  indices at `(r, s)` and `k` are `(r, k)` and `(s, k)`.
-/
import Idealize.ShloMosaic.PureOps.Ideal.Laws
import Idealize.ShloMosaic.Lib.ValueIdx

noncomputable section

open scoped BigOperators
open Idealize.ShloMosaic Idealize.ShloMosaic.ValueIdx

namespace Cert.MatmulTransposedRhs

variable {M K N : Nat}

/-- The left operand's index at output `(r, s)` and contraction coordinate `k` is `(r, k)`. -/
theorem lhsIdx_transposedRhs (r : Fin M) (s : Fin N) (k : Fin K) :
    (DotDims.transposedRhs M K N).lhsIdx (ix2 r s) ((contrEquiv1 (DotDims.transposedRhs M K N) K rfl rfl).symm k) = ix2 r k := by
  have hk := contrEquiv1_symm_val (DotDims.transposedRhs M K N) K rfl rfl k
  funext a
  refine Fin.ext ?_
  match a with
  | ⟨0, _⟩ => rfl
  | ⟨1, _⟩ => exact ((DotDims.transposedRhs M K N).lhsIdx_val_of_single rfl (ix2 r s) _).trans hk

/-- The right operand's index there is `(s, k)`. -/
theorem rhsIdx_transposedRhs (r : Fin M) (s : Fin N) (k : Fin K) :
    (DotDims.transposedRhs M K N).rhsIdx (ix2 r s) ((contrEquiv1 (DotDims.transposedRhs M K N) K rfl rfl).symm k) = ix2 s k := by
  have hk := contrEquiv1_symm_val (DotDims.transposedRhs M K N) K rfl rfl k
  funext a
  refine Fin.ext ?_
  match a with
  | ⟨0, _⟩ => rfl
  | ⟨1, _⟩ => exact ((DotDims.transposedRhs M K N).rhsIdx_val_of_single rfl (ix2 r s) _).trans hk

/-- The matrix unit's product into a zero accumulator, at entry `(r, s)`: `Σ_k lhs[r, k] · rhs[s, k]`. -/
theorem matmul_zero_apply {φ₁ φ₂ : FTy} (prec : Option ContractPrecision)
    (lhs : FVec Ideal ⟨2, ![M, K]⟩ φ₁) (rhs : FVec Ideal ⟨2, ![N, K]⟩ φ₂) (r : Fin M) (s : Fin N) :
    FloatOps.matmul (DotDims.transposedRhs M K N) prec lhs rhs (constant ⟨2, ![M, N]⟩ .f32 0x00000000#32) (ix2 r s)
      = ∑ k : Fin K, lhs (ix2 r k) * rhs (ix2 s k) := by
  rw [Ideal.matmul_constant_zero_apply, ← Equiv.sum_comp (contrEquiv1 (DotDims.transposedRhs M K N) K rfl rfl).symm]
  refine Finset.sum_congr rfl fun k _ => ?_
  rw [lhsIdx_transposedRhs, rhsIdx_transposedRhs]

/-- The host's `dot_general` at entry `(r, s)`: the same sum. -/
theorem dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (s : Fin N) :
    FloatOps.dotGeneral (DotDims.transposedRhs M K N) prec sched lhs rhs (ix2 r s)
      = ∑ k : Fin K, lhs (ix2 r k) * rhs (ix2 s k) := by
  rw [Ideal.dotGeneral_apply, ← Equiv.sum_comp (contrEquiv1 (DotDims.transposedRhs M K N) K rfl rfl).symm]
  refine Finset.sum_congr rfl fun k _ => ?_
  rw [lhsIdx_transposedRhs, rhsIdx_transposedRhs]

end Cert.MatmulTransposedRhs

end
-- ==== Proof.Tile.lean ====
/-
  One tile of the kernel: what the body stores for a `[512, 2048]` row block of `x`, `[256, 2048]` row blocks of the three
  weight arrays and `[256]` blocks of the three bias vectors.

  At the ideal instance a change of float format is the identity, so the two matrix products into a zero accumulator are
  the plain sums `Σ_k lhs[p,k] · rhs[q,k]` over the blocks' common last axis. The bias vector is added after being viewed as
  one row `[1, 256]` and repeated along the 512 rows: entry `(p, q)` reads it at `q`. Entry `(p, q)` of the first store is
  therefore the layer's mean, and of the second its spread, computed from the blocks alone.
-/
import proofs.«180753_j28011776705085_1_alg».proof.Proof.Gen.KernelIdeal.Skeleton
import proofs.«180753_j28011776705085_1_alg».proof.Proof.LibMatmulTransposedRhs
import proofs.«180753_j28011776705085_1_alg».proof.Proof.Spec
import Idealize.ShloMosaic.Lib.ValueLayout

noncomputable section

open scoped BigOperators
open Idealize.ShloMosaic Idealize.ShloMosaic.ValueIdx

namespace Cert.SampledLinear.Tile

open Cert.KernelIdeal Cert.KernelIdeal.Gen

/-- The body's contraction is a `[512, 2048]` by `[256, 2048]` product over both last axes. -/
theorem dims_eq : dot_S512x2048_S256x2048_S512x256_1_1_0_0_n_n = DotDims.transposedRhs 512 2048 256 := rfl

/-- A `[256]` vector viewed as a row and repeated along 512 rows reads, at `(p, q)`, the vector at `q`. -/
theorem row_bcast (v : FVec Ideal S256 .f32) (p : Fin 512) (q : Fin 256) :
    broadcastTo S512x256 (shapeCast S1x256 v shapeCasts_S256_S1x256) broadcasts_S1x256_S512x256 (ix2 p q) = v (ix1 q) := by
  rw [broadcastTo_1b_ab_apply, shapeCast_a_1a_apply]

/-- The first store at `(p, q)`: the mean from the blocks. -/
theorem pay3_apply (x0 : Vec Ideal S512x2048 .f32) (x1 x2 x3 : Vec Ideal S256x2048 .f32) (x8 x9 x10 : Vec Ideal S256 .f32)
    (p : Fin 512) (q : Fin 256) :
    k0_pay3 (F := Ideal) x0 x1 x2 x3 x8 x9 x10 (ix2 p q) = mean x0 x1 x2 x3 x8 x9 x10 p q := by
  unfold k0_pay3 k0_pay1 k0_pay2
  rw [addf_apply, row_bcast, dims_eq]
  show FloatOps.matmul (F := Ideal) (DotDims.transposedRhs 512 2048 256) none _ _ (constant ⟨2, ![512, 256]⟩ .f32 0x00000000#32) (ix2 p q) + _ = _
  rw [Cert.MatmulTransposedRhs.matmul_zero_apply]
  rfl

/-- The second store at `(p, q)`: the spread from the blocks. -/
theorem pay4_apply (x0 : Vec Ideal S512x2048 .f32) (x2 : Vec Ideal S256x2048 .f32) (x9 : Vec Ideal S256 .f32)
    (p : Fin 512) (q : Fin 256) :
    k0_pay4 (F := Ideal) x0 x2 x9 (ix2 p q) = spread x0 x2 x9 p q := by
  unfold k0_pay4 k0_pay1 k0_pay2
  show Ideal.sqrt (addf (F := Ideal) _ _ (ix2 p q)) = _
  rw [addf_apply, row_bcast, dims_eq]
  show Ideal.sqrt (FloatOps.matmul (F := Ideal) (DotDims.transposedRhs 512 2048 256) none _ _ (constant ⟨2, ![512, 256]⟩ .f32 0x00000000#32) (ix2 p q) + _) = _
  rw [Cert.MatmulTransposedRhs.matmul_zero_apply]
  rfl

/-- The same at any index of the tile. -/
theorem pay3_at (x0 : Vec Ideal S512x2048 .f32) (x1 x2 x3 : Vec Ideal S256x2048 .f32) (x8 x9 x10 : Vec Ideal S256 .f32)
    (j : S512x256.Idx) :
    k0_pay3 (F := Ideal) x0 x1 x2 x3 x8 x9 x10 j = mean x0 x1 x2 x3 x8 x9 x10 (j 0) (j 1) := by
  obtain ⟨p, q, rfl⟩ : ∃ (p : Fin 512) (q : Fin 256), j = ix2 p q := ⟨j 0, j 1, eq_ix2 j⟩
  exact pay3_apply x0 x1 x2 x3 x8 x9 x10 p q

theorem pay4_at (x0 : Vec Ideal S512x2048 .f32) (x2 : Vec Ideal S256x2048 .f32) (x9 : Vec Ideal S256 .f32)
    (j : S512x256.Idx) :
    k0_pay4 (F := Ideal) x0 x2 x9 j = spread x0 x2 x9 (j 0) (j 1) := by
  obtain ⟨p, q, rfl⟩ : ∃ (p : Fin 512) (q : Fin 256), j = ix2 p q := ⟨j 0, j 1, eq_ix2 j⟩
  exact pay4_apply x0 x2 x9 p q

end Cert.SampledLinear.Tile

end
-- ==== Proof.KernelValue.lean ====
/-
  What the kernel leaves in its two result arrays: the sampled linear layer's mean and spread.

  The grid has 8 × 8 points. Point `t` works on row block `t mod 8` of `x` (512 rows) and on row block `t / 8` of the three
  weight arrays (256 rows) and of the three bias vectors (256 entries), and writes tile `(t mod 8, t / 8)` of each result,
  512 by 256 entries. Entry `(p, q)` of the tile is entry `(512·(t mod 8) + p, 256·(t / 8) + q)` of the result, and the
  rows of the blocks it is computed from are exactly the rows `512·(t mod 8) + p` of `x` and `256·(t / 8) + q` of the weight
  arrays, with the bias entries at `256·(t / 8) + q`: so the tile is the tile of the layer's mean (and spread) of the whole
  arrays. The 64 tiles cover the `[4096, 2048]` results.
-/
import proofs.«180753_j28011776705085_1_alg».proof.Proof.Gen.KernelIdeal.Value
import proofs.«180753_j28011776705085_1_alg».proof.Proof.Tile

set_option maxRecDepth 16384

noncomputable section

open Idealize.ShloMosaic Idealize.ShloMosaic.TcCoe Idealize.SL.Sem Idealize.ShloMosaic.ValueIdx
open Idealize.ShloMosaic.Pipeline (Dat)

namespace Cert.SampledLinear.Kernel

open Cert.KernelIdeal Cert.KernelIdeal.Gen Cert.KernelIdeal.Value

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block indices at every grid point, decided: the input blocks follow the result tile's row index (`x`) or column
    index (the weight arrays and the bias vectors), the second result's tile is the first's, and both tile indices stay
    below 8. -/
theorem idx_facts : ∀ t : Fin cfg0.N,
    win0_0.index t (0 : Fin 2) = win0_7.index t (0 : Fin 2) ∧ win0_0.index t (1 : Fin 2) = 0
    ∧ win0_1.index t (0 : Fin 2) = win0_7.index t (1 : Fin 2) ∧ win0_1.index t (1 : Fin 2) = 0
    ∧ win0_2.index t (0 : Fin 2) = win0_7.index t (1 : Fin 2) ∧ win0_2.index t (1 : Fin 2) = 0
    ∧ win0_3.index t (0 : Fin 2) = win0_7.index t (1 : Fin 2) ∧ win0_3.index t (1 : Fin 2) = 0
    ∧ win0_4.index t (0 : Fin 1) = win0_7.index t (1 : Fin 2)
    ∧ win0_5.index t (0 : Fin 1) = win0_7.index t (1 : Fin 2)
    ∧ win0_6.index t (0 : Fin 1) = win0_7.index t (1 : Fin 2)
    ∧ win0_8.index t (0 : Fin 2) = win0_7.index t (0 : Fin 2) ∧ win0_8.index t (1 : Fin 2) = win0_7.index t (1 : Fin 2)
    ∧ win0_7.index t (0 : Fin 2) ≤ 7 ∧ win0_7.index t (1 : Fin 2) ≤ 7 :=
  (by decide +kernel : ∀ t : Fin grid0.N, _)

/-- Every one of the 8 × 8 tiles is some point's. -/
theorem idx_onto : ∀ (q0 : Fin 8) (q1 : Fin 8), ∃ t : Fin cfg0.N, win0_7.index t = ![q0.val, q1.val] :=
  (by decide +kernel : ∀ (q0 : Fin 8) (q1 : Fin 8), ∃ t : Fin grid0.N, win0_7.index t = ![q0.val, q1.val])

/-! ## The input blocks as rows of the argument arrays -/

/-- Row `p` of `x`'s block at point `t` is row `512 · (tile row) + p` of `x`. -/
theorem xblk_apply (c : Dev nD) (t : Fin cfg0.N) (p : Fin 512) (k : Fin 2048) (r : Fin 4096)
    (hr : r.val = win0_7.index t (0 : Fin 2) * 512 + p.val) :
    (iblk m c 0 t : Vec Ideal S512x2048 .f32) (ix2 p k) = (V m c main_arg0 : FVec Ideal S4096x2048 .f32) (ix2 r k) := by
  obtain ⟨e0, e1, -⟩ := idx_facts t
  unfold iblk
  rw [View.read_apply]
  show V m c main_arg0 _ = V m c main_arg0 _
  congr 1
  funext a
  apply Fin.ext
  match a with
  | ⟨0, _⟩ => show win0_0.index t (0 : Fin 2) * 512 + 1 * p.val = r.val; omega
  | ⟨1, _⟩ => show win0_0.index t (1 : Fin 2) * 2048 + 1 * k.val = k.val; omega

/-- Row `q` of the weight mean's block at point `t` is row `256 · (tile column) + q` of the weight mean. -/
theorem wmublk_apply (c : Dev nD) (t : Fin cfg0.N) (q : Fin 256) (k : Fin 2048) (s : Fin 2048)
    (hs : s.val = win0_7.index t (1 : Fin 2) * 256 + q.val) :
    (iblk m c 1 t : Vec Ideal S256x2048 .f32) (ix2 q k) = (V m c main_arg1 : FVec Ideal S2048x2048 .f32) (ix2 s k) := by
  obtain ⟨-, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 256 + 1 * q.val = s.val; omega
  | ⟨1, _⟩ => show win0_1.index t (1 : Fin 2) * 2048 + 1 * k.val = k.val; omega

/-- The same for the weight's log deviation. -/
theorem wlsblk_apply (c : Dev nD) (t : Fin cfg0.N) (q : Fin 256) (k : Fin 2048) (s : Fin 2048)
    (hs : s.val = win0_7.index t (1 : Fin 2) * 256 + q.val) :
    (iblk m c 2 t : Vec Ideal S256x2048 .f32) (ix2 q k) = (V m c main_arg2 : FVec Ideal S2048x2048 .f32) (ix2 s k) := by
  obtain ⟨-, -, -, -, e0, e1, -⟩ := idx_facts t
  unfold iblk
  rw [View.read_apply]
  show V m c main_arg2 _ = V m c main_arg2 _
  congr 1
  funext a
  apply Fin.ext
  match a with
  | ⟨0, _⟩ => show win0_2.index t (0 : Fin 2) * 256 + 1 * q.val = s.val; omega
  | ⟨1, _⟩ => show win0_2.index t (1 : Fin 2) * 2048 + 1 * k.val = k.val; omega

/-- The same for the weight's noise. -/
theorem epswblk_apply (c : Dev nD) (t : Fin cfg0.N) (q : Fin 256) (k : Fin 2048) (s : Fin 2048)
    (hs : s.val = win0_7.index t (1 : Fin 2) * 256 + q.val) :
    (iblk m c 3 t : Vec Ideal S256x2048 .f32) (ix2 q k) = (V m c main_arg5 : FVec Ideal S2048x2048 .f32) (ix2 s k) := by
  obtain ⟨-, -, -, -, -, -, e0, e1, -⟩ := idx_facts t
  unfold iblk
  rw [View.read_apply]
  show V m c main_arg5 _ = V m c main_arg5 _
  congr 1
  funext a
  apply Fin.ext
  match a with
  | ⟨0, _⟩ => show win0_3.index t (0 : Fin 2) * 256 + 1 * q.val = s.val; omega
  | ⟨1, _⟩ => show win0_3.index t (1 : Fin 2) * 2048 + 1 * k.val = k.val; omega

/-- Entry `q` of the bias mean's block at point `t` is entry `256 · (tile column) + q` of the bias mean. -/
theorem bmublk_apply (c : Dev nD) (t : Fin cfg0.N) (q : Fin 256) (s : Fin 2048)
    (hs : s.val = win0_7.index t (1 : Fin 2) * 256 + q.val) :
    (iblk m c 4 t : Vec Ideal S256 .f32) (ix1 q) = (V m c main_arg3 : FVec Ideal S2048 .f32) (ix1 s) := by
  obtain ⟨-, -, -, -, -, -, -, -, e0, -⟩ := idx_facts t
  unfold iblk
  rw [View.read_apply]
  show V m c main_arg3 _ = V m c main_arg3 _
  congr 1
  funext a
  apply Fin.ext
  match a with
  | ⟨0, _⟩ => show win0_4.index t (0 : Fin 1) * 256 + 1 * q.val = s.val; omega

/-- The same for the bias's log deviation. -/
theorem blsblk_apply (c : Dev nD) (t : Fin cfg0.N) (q : Fin 256) (s : Fin 2048)
    (hs : s.val = win0_7.index t (1 : Fin 2) * 256 + q.val) :
    (iblk m c 5 t : Vec Ideal S256 .f32) (ix1 q) = (V m c main_arg4 : FVec Ideal S2048 .f32) (ix1 s) := by
  obtain ⟨-, -, -, -, -, -, -, -, -, e0, -⟩ := idx_facts t
  unfold iblk
  rw [View.read_apply]
  show V m c main_arg4 _ = V m c main_arg4 _
  congr 1
  funext a
  apply Fin.ext
  match a with
  | ⟨0, _⟩ => show win0_5.index t (0 : Fin 1) * 256 + 1 * q.val = s.val; omega

/-- The same for the bias's noise. -/
theorem epsbblk_apply (c : Dev nD) (t : Fin cfg0.N) (q : Fin 256) (s : Fin 2048)
    (hs : s.val = win0_7.index t (1 : Fin 2) * 256 + q.val) :
    (iblk m c 6 t : Vec Ideal S256 .f32) (ix1 q) = (V m c main_arg6 : FVec Ideal S2048 .f32) (ix1 s) := by
  obtain ⟨-, -, -, -, -, -, -, -, -, -, e0, -⟩ := idx_facts t
  unfold iblk
  rw [View.read_apply]
  show V m c main_arg6 _ = V m c main_arg6 _
  congr 1
  funext a
  apply Fin.ext
  match a with
  | ⟨0, _⟩ => show win0_6.index t (0 : Fin 1) * 256 + 1 * q.val = s.val; omega

/-! ## The two results -/

/-- The layer's mean of the argument arrays as the region finds them. -/
abbrev meanOf (c : Dev nD) : FVec Ideal S4096x2048 .f32 :=
  meanArr (V m c main_arg0 : FVec Ideal S4096x2048 .f32) (V m c main_arg1 : FVec Ideal S2048x2048 .f32)
    (V m c main_arg2 : FVec Ideal S2048x2048 .f32) (V m c main_arg5 : FVec Ideal S2048x2048 .f32)
    (V m c main_arg3 : FVec Ideal S2048 .f32) (V m c main_arg4 : FVec Ideal S2048 .f32) (V m c main_arg6 : FVec Ideal S2048 .f32)

/-- The layer's spread of them. -/
abbrev spreadOf (c : Dev nD) : FVec Ideal S4096x2048 .f32 :=
  spreadArr (V m c main_arg0 : FVec Ideal S4096x2048 .f32) (V m c main_arg2 : FVec Ideal S2048x2048 .f32)
    (V m c main_arg4 : FVec Ideal S2048 .f32)

/-- What point `t` writes back to the first result is tile `t` of the mean. -/
theorem flushed7_eq (c : Dev nD) (t : Fin cfg0.N) :
    (dats m 0 c).flushed 7 t = ((cfg0.win 7).blk t).view.read (Elt Ideal) (meanOf m c) := by
  rw [Value.flushed7]
  unfold out0_7
  rw [View.canon_unit_zero hz2]
  simp only [View.ld_unit_zero (S := S512x2048) hz2, View.ld_unit_zero (S := S256x2048) hz2, View.ld_unit_zero (S := S256) hz1]
  obtain ⟨-, -, -, -, -, -, -, -, -, -, -, -, -, b0, b1⟩ := idx_facts t
  funext j
  rw [View.read_apply]
  show k0_pay3 (F := Ideal) (iblk m c 0 t) (iblk m c 1 t) (iblk m c 2 t) (iblk m c 3 t) (iblk m c 4 t) (iblk m c 5 t) (iblk m c 6 t) j
    = mean _ _ _ _ _ _ _ ((((cfg0.win 7).blk t).view.emb j) 0) ((((cfg0.win 7).blk t).view.emb j) 1)
  refine (Tile.pay3_at (iblk m c 0 t) (iblk m c 1 t) (iblk m c 2 t) (iblk m c 3 t) (iblk m c 4 t) (iblk m c 5 t) (iblk m c 6 t) j).trans ?_
  have r0 : ((((cfg0.win 7).blk t).view.emb j) 0).val = win0_7.index t (0 : Fin 2) * 512 + 1 * (j 0).val := rfl
  have r1 : ((((cfg0.win 7).blk t).view.emb j) 1).val = win0_7.index t (1 : Fin 2) * 256 + 1 * (j 1).val := rfl
  exact mean_congr _ _ _ _ _ _ _ _ _ _ _ _ _ _ (j 0) (j 1) _ _
    (fun k => xblk_apply m c t (j 0) k _ (by rw [r0]; omega))
    (fun k => wmublk_apply m c t (j 1) k _ (by rw [r1]; omega))
    (fun k => wlsblk_apply m c t (j 1) k _ (by rw [r1]; omega))
    (fun k => epswblk_apply m c t (j 1) k _ (by rw [r1]; omega))
    (bmublk_apply m c t (j 1) _ (by rw [r1]; omega))
    (blsblk_apply m c t (j 1) _ (by rw [r1]; omega))
    (epsbblk_apply m c t (j 1) _ (by rw [r1]; omega))

/-- What point `t` writes back to the second result is tile `t` of the spread. -/
theorem flushed8_eq (c : Dev nD) (t : Fin cfg0.N) :
    (dats m 0 c).flushed 8 t = ((cfg0.win 8).blk t).view.read (Elt Ideal) (spreadOf m c) := by
  rw [Value.flushed8]
  unfold out0_8
  rw [View.canon_unit_zero hz2]
  simp only [View.ld_unit_zero (S := S512x2048) hz2, View.ld_unit_zero (S := S256x2048) hz2, View.ld_unit_zero (S := S256) hz1]
  obtain ⟨-, -, -, -, -, -, -, -, -, -, -, e0, e1, b0, b1⟩ := idx_facts t
  funext j
  rw [View.read_apply]
  show k0_pay4 (F := Ideal) (iblk m c 0 t) (iblk m c 2 t) (iblk m c 5 t) j
    = spread _ _ _ ((((cfg0.win 8).blk t).view.emb j) 0) ((((cfg0.win 8).blk t).view.emb j) 1)
  refine (Tile.pay4_at (iblk m c 0 t) (iblk m c 2 t) (iblk m c 5 t) j).trans ?_
  have r0 : ((((cfg0.win 8).blk t).view.emb j) 0).val = win0_8.index t (0 : Fin 2) * 512 + 1 * (j 0).val := rfl
  have r1 : ((((cfg0.win 8).blk t).view.emb j) 1).val = win0_8.index t (1 : Fin 2) * 256 + 1 * (j 1).val := rfl
  exact spread_congr _ _ _ _ _ _ (j 0) (j 1) _ _
    (fun k => xblk_apply m c t (j 0) k _ (by rw [r0]; omega))
    (fun k => wlsblk_apply m c t (j 1) k _ (by rw [r1]; omega))
    (blsblk_apply m c t (j 1) _ (by rw [r1]; omega))

/-! ## The tiles cover the results -/

/-- An index of the first result is in point `t`'s tile iff each coordinate is in the tile's range on its axis. -/
theorem mem_blk7 (t : Fin cfg0.N) (i : S4096x2048.Idx) :
    i ∈ ((cfg0.win 7).blk t).view.set ↔ ∀ a : Fin 2, win0_7.index t a * S512x256.size a ≤ (i a).val ∧ (i a).val < win0_7.index t a * S512x256.size a + S512x256.size a := by
  show i ∈ ((View.whole main_v0_0).slice (win0_7.rect t)).set ↔ _
  rw [View.set_slice_whole, Rect.mem_set_unit]
  exact Iff.rfl

theorem mem_blk8 (t : Fin cfg0.N) (i : S4096x2048.Idx) :
    i ∈ ((cfg0.win 8).blk t).view.set ↔ ∀ a : Fin 2, win0_8.index t a * S512x256.size a ≤ (i a).val ∧ (i a).val < win0_8.index t a * S512x256.size a + S512x256.size a := by
  show i ∈ ((View.whole main_v0_1).slice (win0_8.rect t)).set ↔ _
  rw [View.set_slice_whole, Rect.mem_set_unit]
  exact Iff.rfl

/-- Index `(r, s)` lies in the tile `(r / 512, s / 256)`. -/
theorem cover7 (i : S4096x2048.Idx) : ∃ t : Fin cfg0.N, (cfg0.win 7).flush t = true ∧ i ∈ ((cfg0.win 7).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  have q0 : win0_7.index t (0 : Fin 2) = (i 0).val / 512 := congrFun ht 0
  have q1 : win0_7.index t (1 : Fin 2) = (i 1).val / 256 := congrFun ht 1
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 256 ≤ (i 1).val ∧ (i 1).val < win0_7.index t (1 : Fin 2) * 256 + 256; omega

theorem cover8 (i : S4096x2048.Idx) : ∃ t : Fin cfg0.N, (cfg0.win 8).flush t = true ∧ i ∈ ((cfg0.win 8).blk t).view.set := by
  have hi0 : (i 0).val < 4096 := (i 0).isLt
  have hi1 : (i 1).val < 2048 := (i 1).isLt
  obtain ⟨t, ht⟩ := idx_onto ⟨(i 0).val / 512, by omega⟩ ⟨(i 1).val / 256, by omega⟩
  obtain ⟨-, -, -, -, -, -, -, -, -, -, -, e0, e1, -⟩ := idx_facts t
  have q0 : win0_7.index t (0 : Fin 2) = (i 0).val / 512 := congrFun ht 0
  have q1 : win0_7.index t (1 : Fin 2) = (i 1).val / 256 := congrFun ht 1
  refine ⟨t, flush0_8 t, ?_⟩
  rw [mem_blk8]
  intro a
  match a with
  | ⟨0, _⟩ => show win0_8.index t (0 : Fin 2) * 512 ≤ (i 0).val ∧ (i 0).val < win0_8.index t (0 : Fin 2) * 512 + 512; omega
  | ⟨1, _⟩ => show win0_8.index t (1 : Fin 2) * 256 ≤ (i 1).val ∧ (i 1).val < win0_8.index t (1 : Fin 2) * 256 + 256; omega

/-- The first result after the run is the mean. -/
theorem final7 (c : Dev nD) : (dats m 0 c).arrAt 7 cfg0.N = meanOf m c :=
  (dats m 0 c).arrAt_eq_of_cover 7 (meanOf m c) (fun t _ => flushed7_eq m c t) cover7

/-- The second result after the run is the spread. -/
theorem final8 (c : Dev nD) : (dats m 0 c).arrAt 8 cfg0.N = spreadOf m c :=
  (dats m 0 c).arrAt_eq_of_cover 8 (spreadOf m c) (fun t _ => flushed8_eq m c t) cover8

/-- The run, read: the two results at the layer's mean and spread of the arguments, the arguments unchanged. -/
theorem run : θ_run defs (onTc (τ := τ) (main (F := Ideal))) ⟨m, fun _ => 0, ρ⟩ fun r => ∀ c : Dev nD,
      r.2.mem ((c : Thread nD τ).loc main_v0_0) = meanOf m c
      ∧ r.2.mem ((c : Thread nD τ).loc main_v0_1) = spreadOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.SampledLinear.Kernel

end
-- ==== Proof.lean ====
/-
  A linear layer with reparametrised weights: `out = x · (wmu + exp(wls) · epsw)ᵀ + (bmu + exp(bls) · epsb)` and its
  spread `sqrt((x · x) · (exp(wls) · exp(wls))ᵀ + exp(bls) · exp(bls))`, for `x` of shape `[4096, 2048]`, weight arrays
  `[2048, 2048]` and bias vectors `[2048]`.

  The kernel computes both results tile by tile, 512 rows by 256 columns, each tile from a row block of `x` and a row
  block of the weight arrays in one contraction over the whole inner axis; the host program computes them with two
  whole-array contractions. On the extended reals the narrowing of the matrix unit's operands is the identity and a
  contraction into a zero accumulator is the plain sum over the inner axis, so each tile entry is the same expression of the
  same rows as the host's entry: no rearrangement of a sum is needed, and the inputs' finiteness is not used.

  `Spec` states the two results entry by entry; `RefValue` reads the host program's operations as that; `Tile` reads the
  kernel body's two stores as that on a tile; `KernelValue` carries the tiles to the result arrays; here the claims.
-/
import proofs.«180753_j28011776705085_1_alg».proof.Defs
import proofs.«180753_j28011776705085_1_alg».proof.Proof.Gen.Kernel
import proofs.«180753_j28011776705085_1_alg».proof.Proof.Gen.Kernel.Skeleton
import proofs.«180753_j28011776705085_1_alg».proof.Proof.Gen.Kernel.Launch
import proofs.«180753_j28011776705085_1_alg».proof.Proof.Gen.Kernel.Points
import proofs.«180753_j28011776705085_1_alg».proof.Proof.Gen.Kernel.Frame
import proofs.«180753_j28011776705085_1_alg».proof.Proof.Gen.KernelIdeal
import proofs.«180753_j28011776705085_1_alg».proof.Proof.Gen.KernelIdeal.Skeleton
import proofs.«180753_j28011776705085_1_alg».proof.Proof.Gen.KernelIdeal.Launch
import proofs.«180753_j28011776705085_1_alg».proof.Proof.Gen.KernelIdeal.Points
import proofs.«180753_j28011776705085_1_alg».proof.Proof.Gen.KernelIdeal.Frame
import proofs.«180753_j28011776705085_1_alg».proof.Proof.Gen.ReferenceIdeal
import proofs.«180753_j28011776705085_1_alg».proof.Proof.Gen.Pre_finite_inputs
import proofs.«180753_j28011776705085_1_alg».proof.Proof.Gen.KernelIdeal.Value
import proofs.«180753_j28011776705085_1_alg».proof.Proof.Gen.ReferenceIdeal.Run
import proofs.«180753_j28011776705085_1_alg».proof.Proof.Gen.ReferenceIdeal.Read
import proofs.«180753_j28011776705085_1_alg».proof.Proof.RefValue
import proofs.«180753_j28011776705085_1_alg».proof.Proof.KernelValue
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The host program runs and leaves its arguments as they were: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- On the extended reals, from memories that agree on the seven arguments, the kernel's two result arrays and the host
    program's are the layer's mean and spread of those arguments. -/
theorem algebraic : Cert.algebraic_KernelIdeal_ReferenceIdeal := by
  intro m ρ m' ρ' _ hagree
  refine ⟨fun c => Cert.SampledLinear.Kernel.meanOf m c, fun c => Cert.SampledLinear.Kernel.spreadOf m c,
    Cert.SampledLinear.Kernel.run m ρ, ?_⟩
  refine (θ_run Cert.ReferenceIdeal.defs _ _).mono (fun _ h c => ?_) (Cert.ReferenceIdeal.Value.run (F := Ideal) m' ρ')
  obtain ⟨a0, a1, a2, a3, a4, a5, a6⟩ := hagree c
  refine ⟨(h c).1.trans ?_, (h c).2.1.trans ?_, (h c).2.2⟩
  · rw [Cert.ReferenceIdeal.Read.val_main_v9_eq, Cert.SampledLinear.Host.mean_eq, a0, a1, a2, a3, a4, a5, a6]
  · rw [Cert.ReferenceIdeal.Read.val_main_v17_eq, Cert.SampledLinear.Host.spread_eq, a0, a2, a4]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
